-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S32768x128 : Shape := ⟨2, ![32768, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_

variable [Facts]

def fn {F : FTy → Type} [FloatOps F] (main_arg0 : FVec F S8192x128 .f32) (main_arg1 : FVec F S32768x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S32768x128 .f32 := Host.absf main_arg1
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  main_v8
-- ==== Kernel.lean ====
abbrev S8192x128 : Shape := ⟨2, ![8192, 128]⟩
abbrev S32768x128 : Shape := ⟨2, ![32768, 128]⟩
abbrev S_ : Shape := ⟨0, ![]⟩
abbrev S8192 : Shape := ⟨1, ![8192]⟩
abbrev S8192x1 : Shape := ⟨2, ![8192, 1]⟩
abbrev S32768 : Shape := ⟨1, ![32768]⟩
abbrev S1x32768 : Shape := ⟨2, ![1, 32768]⟩
abbrev S8192x32768 : Shape := ⟨2, ![8192, 32768]⟩
abbrev S512x128 : Shape := ⟨2, ![512, 128]⟩
abbrev S2048x128 : Shape := ⟨2, ![2048, 128]⟩
abbrev S512x1 : Shape := ⟨2, ![512, 1]⟩
abbrev S1x2048 : Shape := ⟨2, ![1, 2048]⟩
abbrev S512x2048 : Shape := ⟨2, ![512, 2048]⟩
abbrev S128x2048 : Shape := ⟨2, ![128, 2048]⟩

abbrev nBuf : Space → Nat
  | .hbm => 11
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S32768x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S32768x128, .f32⟩
  | .hbm, ⟨7, _⟩ => ⟨S_, .f32⟩
  | .hbm, ⟨8, _⟩ => ⟨S32768, .f32⟩
  | .hbm, ⟨9, _⟩ => ⟨S1x32768, .f32⟩
  | .hbm, ⟨10, _⟩ => ⟨S8192x32768, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  reducesTo_S32768x128_S32768_d1 : S32768x128.ReducesTo [1] S32768
  bcast_S32768_S1x32768_1 : S32768.BroadcastsInDim S1x32768 (![1] : Fin 1 → Fin S1x32768.rank)
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  transposes_S2048x128_p1_0_S128x2048 : S2048x128.Transposes [1, 0] S128x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S32768x128.size a
  hwx0_1 : ∀ i : grid0.Coords, EltTy.bits .f32 = 32 ∨ (Rect.block (s := S32768x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x32768.size a
  hwx0_3 : ∀ i : grid0.Coords, EltTy.bits .f32 = 32 ∨ (Rect.block (s := S1x32768) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x32768.size a
  hwx0_4 : ∀ i : grid0.Coords, EltTy.bits .f32 = 32 ∨ (Rect.block (s := S8192x32768) S512x2048.size (cc0_transform_4 i) (hinb0_4 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S32768x128 : Shape := ⟨2, ![32768, 128]⟩
abbrev S_ : Shape := ⟨0, ![]⟩
abbrev S8192 : Shape := ⟨1, ![8192]⟩
abbrev S8192x1 : Shape := ⟨2, ![8192, 1]⟩
abbrev S32768 : Shape := ⟨1, ![32768]⟩
abbrev S8192x32768 : Shape := ⟨2, ![8192, 32768]⟩
abbrev S1x32768 : Shape := ⟨2, ![1, 32768]⟩

abbrev nBuf : Space → Nat
  | .hbm => 22
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S32768x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S32768x128, .f32⟩
  | .hbm, ⟨7, _⟩ => ⟨S_, .f32⟩
  | .hbm, ⟨8, _⟩ => ⟨S32768, .f32⟩
  | .hbm, ⟨9, _⟩ => ⟨S8192x32768, .f32⟩
  | .hbm, ⟨10, _⟩ => ⟨S1x32768, .f32⟩
  | .hbm, ⟨11, _⟩ => ⟨S8192x32768, .f32⟩
  | .hbm, ⟨12, _⟩ => ⟨S8192x32768, .f32⟩
  | .hbm, ⟨13, _⟩ => ⟨S8192x32768, .f32⟩
  | .hbm, ⟨14, _⟩ => ⟨S_, .f32⟩
  | .hbm, ⟨15, _⟩ => ⟨S8192x32768, .f32⟩
  | .hbm, ⟨16, _⟩ => ⟨S8192x32768, .f32⟩
  | .hbm, ⟨17, _⟩ => ⟨S8192x32768, .f32⟩
  | .hbm, ⟨18, _⟩ => ⟨S_, .f32⟩
  | .hbm, ⟨19, _⟩ => ⟨S8192x32768, .f32⟩
  | .hbm, ⟨20, _⟩ => ⟨S8192x32768, .f32⟩
  | .hbm, ⟨21, _⟩ => ⟨S8192x32768, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  reducesTo_S32768x128_S32768_d1 : S32768x128.ReducesTo [1] S32768
  bcast_S32768_S1x32768_1 : S32768.BroadcastsInDim S1x32768 (![1] : Fin 1 → Fin S1x32768.rank)
  bcast_S8192x1_S8192x32768_0_1 : S8192x1.BroadcastsInDim S8192x32768 (![0, 1] : Fin 2 → Fin S8192x32768.rank)
  bcast_S1x32768_S8192x32768_0_1 : S1x32768.BroadcastsInDim S8192x32768 (![0, 1] : Fin 2 → Fin S8192x32768.rank)
  bcast_S_S8192x32768 : S_.BroadcastsInDim S8192x32768 (![] : Fin 0 → Fin S8192x32768.rank)
  dot_S8192x128_S32768x128_S8192x32768_1_1_0_0_n_n_wf : DotDims.WF S8192x128 S32768x128 S8192x32768 [1] [1] [0] [0] [] []

variable [Facts₀]

def dot_S8192x128_S32768x128_S8192x32768_1_1_0_0_n_n : DotDims S8192x128 S32768x128 S8192x32768 where
  lhsContracting := [1]
  rhsContracting := [1]
  lhsNonContracting := [0]
  rhsNonContracting := [0]
  lhsBatch := []
  rhsBatch := []
  wf := dot_S8192x128_S32768x128_S8192x32768_1_1_0_0_n_n_wf

class Facts : Prop extends Facts₀ where

variable [Facts]
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.LibBroadcastColumn.lean ====
/-
  A column broadcast along rows, read at one entry.

  An [a × 1] array broadcast to [a × b] holds, at (p, c), the operand's row p: the unit axis is read at 0 and the
  other axis at the result's own coordinate. (The companion for a [1 × b] row broadcast down the columns is the
  library's.)
-/
import Idealize.ShloMosaic.Lib.Pipeline.Value
import Idealize.ShloMosaic.Lib.ValueIdx

namespace Idealize.ShloMosaic.BroadcastColumn

open Idealize.ShloMosaic Idealize.ShloMosaic.ValueIdx

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.BroadcastColumn
-- ==== Proof.Spec.lean ====
/-
  The pairwise Euclidean distance matrix as ONE function of the two embedding arrays, over the extended reals.

  For an [N × 128] array `a`, `rowSq a p = 0 + ∑ₖ a[p,k]·a[p,k]` is the squared norm of row p (the leading zero is the
  initial value the sum starts from). For queries `a0 : [8192 × 128]` and references `a1 : [32768 × 128]`,

      distMat a0 a1 (p, q) = √ max( (‖a0ₚ‖² + ‖a1_q‖²) − 2·⟨a0ₚ, a1_q⟩ , 0 ),

  the expanded form of ‖a0ₚ − a1_q‖, clamped at zero before the root. Both programs compute exactly this term, with the
  same grouping of the three summands, so no law of arithmetic beyond re-indexing the sums is needed and nothing is asked
  of the inputs.

  Also here: the host's sum of a row's squares, read at a row, is `rowSq`.
-/
import Idealize.ShloMosaic.PureOps.Ideal
import Idealize.ShloMosaic.PureOps.Ideal.Laws
import Idealize.ShloMosaic.Lib.ValueIdx

noncomputable section

namespace Cert.Pairwise

open Idealize.ShloMosaic Idealize.ShloMosaic.ValueIdx

/-- The squared norm of row `p` of an [N × 128] array: the sum over the 128 columns of the entry squared, from zero. -/
def rowSq {N : Nat} (a : FVec Ideal ⟨2, ![N, 128]⟩ .f32) (p : Fin N) : EReal :=
  Ideal.ofBits .f32 0x00000000#32 + ∑ k : Fin 128, a (ix2 p k) * a (ix2 p k)

/-- The inner product of query row `p` with reference row `q`. -/
def rowDot (a0 : FVec Ideal ⟨2, ![8192, 128]⟩ .f32) (a1 : FVec Ideal ⟨2, ![32768, 128]⟩ .f32) (p : Fin 8192) (q : Fin 32768) : EReal :=
  ∑ k : Fin 128, a0 (ix2 p k) * a1 (ix2 q k)

/-- The distance of query row `p` to reference row `q` from the two squared norms and the inner product. -/
def distOf (sp sq ip : EReal) : EReal :=
  Ideal.sqrt (max ((sp + sq) - Ideal.ofBits .f32 0x40000000#32 * ip) (Ideal.ofBits .f32 0x00000000#32))

/-- The distance matrix: entry (p, q) is the clamped root of ‖a0ₚ‖² + ‖a1_q‖² − 2⟨a0ₚ, a1_q⟩. -/
def distMat (a0 : FVec Ideal ⟨2, ![8192, 128]⟩ .f32) (a1 : FVec Ideal ⟨2, ![32768, 128]⟩ .f32) : FVec Ideal ⟨2, ![8192, 32768]⟩ .f32 :=
  fun i => distOf (rowSq a0 (i 0)) (rowSq a1 (i 1)) (rowDot a0 a1 (i 0) (i 1))

theorem distMat_ix2 (a0 : FVec Ideal ⟨2, ![8192, 128]⟩ .f32) (a1 : FVec Ideal ⟨2, ![32768, 128]⟩ .f32) (p : Fin 8192) (q : Fin 32768) :
    distMat a0 a1 (ix2 p q) = distOf (rowSq a0 p) (rowSq a1 q) (rowDot a0 a1 p q) := rfl

/-- The host's sum over the column axis of the entrywise square of an [N × 128] array, started from the zero scalar,
    is at row `p` the squared norm `rowSq a p`: the sum runs over that row's 128 entries. -/
theorem hostRowSq {N : Nat} (a : FVec Ideal ⟨2, ![N, 128]⟩ .f32)
    (h' : (⟨2, ![N, 128]⟩ : Shape).ReducesTo [1] ⟨1, ![N]⟩) (h : (⟨2, ![N, 128]⟩ : Shape).Reduces [1] ⟨1, ![N]⟩)
    (hu : 0 < (⟨0, ![]⟩ : Shape).numel) (p : Fin N) :
    Host.reduceAdd (mulf a a) (constant (F := Ideal) ⟨0, ![]⟩ .f32 0x00000000#32) h' hu (ix1 p) = rowSq a p := by
  simp only [Host.reduceAdd, Ideal.hostReduceAdd_def]
  rw [Ideal.hostReduceAdd_single h' h]
  refine congrArg (_ + ·) (Finset.sum_congr rfl fun k _ => ?_)
  have e : h.lift (ix1 p) k = ix2 p k := funext fun d => Fin.ext (by match d with | ⟨0, _⟩ => rfl | ⟨1, _⟩ => rfl)
  rw [e]
  rfl

end Cert.Pairwise

end
-- ==== Proof.KernelPayload.lean ====
/-
  What the kernel body stores, entry by entry.

  On a [512 × 128] block of queries `x0`, a [2048 × 128] block of references `x1`, the [512 × 1] column `x2` of the
  queries' squared norms and the [1 × 2048] row `x3` of the references' squared norms, the body stores at (p, q)

      √ max( (x2[p, 0] + x3[0, q]) − 2·∑ₖ x0[p, k]·x1[q, k] , 0 ).

  The change of float format before the product is the identity on extended reals; the transposed reference block read
  at (k, q) is the block at (q, k); the product into a zero accumulator is the sum over the contracted axis; the column
  and the row are each broadcast along the other axis.
-/
import proofs.«108994_j86517821213754_1_alg».proof.Proof.Gen.KernelIdeal.Skeleton
import proofs.«108994_j86517821213754_1_alg».proof.Proof.LibMatmulAt
import proofs.«108994_j86517821213754_1_alg».proof.Proof.LibBroadcastColumn
import proofs.«108994_j86517821213754_1_alg».proof.Proof.Spec
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx Cert.Pairwise

/-- The product's dimension numbers read the left operand at (row, k) … -/
theorem lhs_0 (i : S512x2048.Idx) (q : dot_S512x128_S128x2048_S512x2048_1_0_0_1_n_n.contr.Idx) :
    (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem lhs_1 (i : S512x2048.Idx) (q : dot_S512x128_S128x2048_S512x2048_1_0_0_1_n_n.contr.Idx) :
    (dot_S512x128_S128x2048_S512x2048_1_0_0_1_n_n.lhsIdx i q 1).val = (q ⟨0, by decide⟩).val :=
  dot_S512x128_S128x2048_S512x2048_1_0_0_1_n_n.lhsIdx_val_of_single rfl i q
/-- … and the right operand at (k, column). -/
theorem rhs_0 (i : S512x2048.Idx) (q : dot_S512x128_S128x2048_S512x2048_1_0_0_1_n_n.contr.Idx) :
    (dot_S512x128_S128x2048_S512x2048_1_0_0_1_n_n.rhsIdx i q 0).val = (q ⟨0, by decide⟩).val :=
  dot_S512x128_S128x2048_S512x2048_1_0_0_1_n_n.rhsIdx_val_of_single rfl i q
theorem rhs_1 (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- The body's stored value at (p, q). -/
theorem payload_at (x0 : Vec Ideal S512x128 .f32) (x1 : Vec Ideal S2048x128 .f32) (x2 : Vec Ideal S512x1 .f32) (x3 : Vec Ideal S1x2048 .f32)
    (p : Fin 512) (q : Fin 2048) :
    k0_pay1 (F := Ideal) x0 x1 x2 x3 (ix2 p q)
      = distOf (x2 (ix2 p (0 : Fin 1))) (x3 (ix2 (0 : Fin 1) q)) (∑ k : Fin 128, x0 (ix2 p k) * x1 (ix2 q k)) := by
  unfold k0_pay1
  dsimp only
  rw [shapeCast_self, shapeCast_self]
  show distOf (broadcastTo S512x2048 x2 broadcasts_S512x1_S512x2048 (ix2 p q))
      (broadcastTo S512x2048 x3 broadcasts_S1x2048_S512x2048 (ix2 p q))
      (FloatOps.matmul dot_S512x128_S128x2048_S512x2048_1_0_0_1_n_n none (truncf .bf16 x0 bitsLt_bf16_f32)
        (transpose S128x2048 [1, 0] (truncf .bf16 x1 bitsLt_bf16_f32) transposes_S2048x128_p1_0_S128x2048)
        (constant (F := Ideal) S512x2048 .f32 0x00000000#32) (ix2 p q)) = _
  rw [BroadcastColumn.broadcastTo_a1_ab_apply, broadcastTo_1b_ab_apply,
    MatmulAt.matmul_zero_at dot_S512x128_S128x2048_S512x2048_1_0_0_1_n_n rfl rfl lhs_0 lhs_1 rhs_0 rhs_1]
  refine congrArg _ (Finset.sum_congr rfl fun k _ => ?_)
  rw [transpose_ix2_apply]
  rfl

end Cert.KernelIdeal.Payload

end
-- ==== Proof.KernelHost.lean ====
/-
  What the kernel region finds in the two arrays the host wrote before it.

  Before the region the host squares each embedding array entrywise, sums every row over its 128 columns, and lays the
  queries' sums out as an [8192 × 1] column and the references' as a [1 × 32768] row. So the column at (p, ·) is the
  squared norm of query row p, and the row at (·, q) the squared norm of reference row q.
-/
import proofs.«108994_j86517821213754_1_alg».proof.Proof.Gen.KernelIdeal.Frame
import proofs.«108994_j86517821213754_1_alg».proof.Proof.Spec
import Idealize.ShloMosaic.Lib.Pipeline.Value
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.ValueIdx Idealize.ShloMosaic.StableHlo Cert.Pairwise

variable (m : (ℓ : Loc nD τ sig) → Buf (Elt Ideal) ℓ)

/-- The queries' column as the host operations' term of the query array. -/
theorem qsq_term (c : Dev nD) : (V m c main_v2 : S8192x1.Idx → EReal) =
    broadcastInDim S8192x1 ![0] bcast_S8192_S8192x1_0
      (Host.reduceAdd (mulf (m ((c : Thread nD τ).loc main_arg0)) (m ((c : Thread nD τ).loc main_arg0)))
        (constant (F := Ideal) S_ .f32 0x00000000#32) reducesTo_S8192x128_S8192_d1 h_S_) := by
  dsimp only [V, hostOps0]; after_results

/-- The references' row as the host operations' term of the reference array. -/
theorem rsq_term (c : Dev nD) : (V m c main_v5 : S1x32768.Idx → EReal) =
    broadcastInDim S1x32768 ![1] bcast_S32768_S1x32768_1
      (Host.reduceAdd (mulf (m ((c : Thread nD τ).loc main_arg1)) (m ((c : Thread nD τ).loc main_arg1)))
        (constant (F := Ideal) S_ .f32 0x00000000#32) reducesTo_S32768x128_S32768_d1 h_S_) := by
  dsimp only [V, hostOps0]; after_results

/-- The column's entry in row `p` is the squared norm of query row `p`. -/
theorem qsq_at (c : Dev nD) (k : S8192x1.Idx) :
    (V m c main_v2 : S8192x1.Idx → EReal) k = rowSq (m ((c : Thread nD τ).loc main_arg0)) (k 0) := by
  refine (congrFun (qsq_term m c) k).trans ?_
  rw [broadcastInDim_apply _ bcast_S8192_S8192x1_0 _ k (ix1 (k 0)) (fun a => match a with
    | ⟨0, _⟩ => by show (k 0).val = if (8192 : Nat) = 1 then 0 else (k 0).val; rw [if_neg (by decide)])]
  exact hostRowSq _ _ (by decide) _ (k 0)

/-- The row's entry in column `q` is the squared norm of reference row `q`. -/
theorem rsq_at (c : Dev nD) (k : S1x32768.Idx) :
    (V m c main_v5 : S1x32768.Idx → EReal) k = rowSq (m ((c : Thread nD τ).loc main_arg1)) (k 1) := by
  refine (congrFun (rsq_term m c) k).trans ?_
  rw [broadcastInDim_apply _ bcast_S32768_S1x32768_1 _ k (ix1 (k 1)) (fun a => match a with
    | ⟨0, _⟩ => by show (k 1).val = if (32768 : Nat) = 1 then 0 else (k 1).val; rw [if_neg (by decide)])]
  exact hostRowSq _ _ (by decide) _ (k 1)

end Cert.KernelIdeal.HostValue

end
-- ==== Proof.KernelValue.lean ====
/-
  The array the kernel leaves: the distance matrix of the two arguments.

  The grid has 16 × 16 points; point t = 16·i + j works on query rows 512·i … 512·i + 511 and reference rows
  2048·j … 2048·j + 2047. Its query block, its slice of the squared-norm column, its reference block and its slice of
  the squared-norm row are the corresponding rows of the whole arrays, so what the body stores at (p, q) of its
  [512 × 2048] block is entry (512·i + p, 2048·j + q) of the distance matrix — the entry that block position occupies in
  the result array. Every index of the [8192 × 32768] result lies in exactly the block of the point with
  i = row / 512 and j = column / 2048, so the blocks cover the array and it ends holding the whole matrix.
-/
import proofs.«108994_j86517821213754_1_alg».proof.Proof.Gen.KernelIdeal.Value
import proofs.«108994_j86517821213754_1_alg».proof.Proof.KernelPayload
import proofs.«108994_j86517821213754_1_alg».proof.Proof.KernelHost

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.Pairwise
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Point t = 16·i + j: the output block is (i, j); the query block and the column slice are block i, the reference
    block and the row slice are block j. Decided over the 256 points. -/
theorem idx_facts : ∀ t : Fin cfg0.N,
    win0_4.index t (0 : Fin 2) = t.val / 16 ∧ win0_4.index t (1 : Fin 2) = t.val % 16
    ∧ win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16 :=
  (by decide +kernel : ∀ t : Fin grid0.N, _)

/-! ## Each input block as rows of its array -/

/-- The query block at point `t`, at `x`, is the query array at the index whose coordinates are the block's offset plus `x`'s. -/
theorem qblk_at (c : Dev nD) (t : Fin cfg0.N) (x : S512x128.Idx) (k : S8192x128.Idx)
    (h0 : (k 0).val = win0_0.index t 0 * 512 + 1 * (x 0).val) (h1 : (k 1).val = win0_0.index t 1 * 128 + 1 * (x 1).val) :
    (iblk m c 0 t : Vec Ideal S512x128 .f32) x = (m ((c : Thread nD τ).loc main_arg0) : S8192x128.Idx → EReal) k := by
  unfold iblk
  rw [View.read_apply]
  show V m c main_arg0 _ = _
  rw [V_main_arg0]
  refine congrArg _ (funext fun a => Fin.ext ?_)
  match a with
  | ⟨0, _⟩ => exact h0.symm
  | ⟨1, _⟩ => exact h1.symm

/-- The reference block likewise. -/
theorem rblk_at (c : Dev nD) (t : Fin cfg0.N) (x : S2048x128.Idx) (k : S32768x128.Idx)
    (h0 : (k 0).val = win0_1.index t 0 * 2048 + 1 * (x 0).val) (h1 : (k 1).val = win0_1.index t 1 * 128 + 1 * (x 1).val) :
    (iblk m c 1 t : Vec Ideal S2048x128 .f32) x = (m ((c : Thread nD τ).loc main_arg1) : S32768x128.Idx → EReal) k := by
  unfold iblk
  rw [View.read_apply]
  show V m c main_arg1 _ = _
  rw [V_main_arg1]
  refine congrArg _ (funext fun a => Fin.ext ?_)
  match a with
  | ⟨0, _⟩ => exact h0.symm
  | ⟨1, _⟩ => exact h1.symm

/-- The slice of the squared-norm column. -/
theorem qsqblk_at (c : Dev nD) (t : Fin cfg0.N) (x : S512x1.Idx) (k : S8192x1.Idx)
    (h0 : (k 0).val = win0_2.index t 0 * 512 + 1 * (x 0).val) (h1 : (k 1).val = win0_2.index t 1 * 1 + 1 * (x 1).val) :
    (iblk m c 2 t : Vec Ideal S512x1 .f32) x = (V m c main_v2 : S8192x1.Idx → EReal) k := by
  unfold iblk
  rw [View.read_apply]
  show V m c main_v2 _ = _
  refine congrArg _ (funext fun a => Fin.ext ?_)
  match a with
  | ⟨0, _⟩ => exact h0.symm
  | ⟨1, _⟩ => exact h1.symm

/-- The slice of the squared-norm row. -/
theorem rsqblk_at (c : Dev nD) (t : Fin cfg0.N) (x : S1x2048.Idx) (k : S1x32768.Idx)
    (h0 : (k 0).val = win0_3.index t 0 * 1 + 1 * (x 0).val) (h1 : (k 1).val = win0_3.index t 1 * 2048 + 1 * (x 1).val) :
    (iblk m c 3 t : Vec Ideal S1x2048 .f32) x = (V m c main_v5 : S1x32768.Idx → EReal) k := by
  unfold iblk
  rw [View.read_apply]
  show V m c main_v5 _ = _
  refine congrArg _ (funext fun a => Fin.ext ?_)
  match a with
  | ⟨0, _⟩ => exact h0.symm
  | ⟨1, _⟩ => exact h1.symm

/-! ## What a point writes back -/

/-- An entry of the distance matrix from its three ingredients given separately. -/
theorem distMat_of_parts (a0 : FVec Ideal ⟨2, ![8192, 128]⟩ .f32) (a1 : FVec Ideal ⟨2, ![32768, 128]⟩ .f32)
    (i : (⟨2, ![8192, 32768]⟩ : Shape).Idx) (sp sq : EReal) (f0 f1 : Fin 128 → EReal)
    (hsp : sp = rowSq a0 (i 0)) (hsq : sq = rowSq a1 (i 1))
    (h0 : ∀ k, f0 k = a0 (ix2 (i 0) k)) (h1 : ∀ k, f1 k = a1 (ix2 (i 1) k)) :
    distOf sp sq (∑ k : Fin 128, f0 k * f1 k) = distMat a0 a1 i := by
  subst hsp hsq
  unfold distMat rowDot
  exact congrArg _ (Finset.sum_congr rfl fun k _ => by rw [h0 k, h1 k])

/-- WHAT POINT `t` WRITES BACK is block `t` of the distance matrix of the two arguments. -/
theorem flushed_eq (c : Dev nD) (t : Fin cfg0.N) :
    (dats m 0 c).flushed 4 t = ((cfg0.win 4).blk t).view.read (Elt Ideal)
      (distMat (m ((c : Thread nD τ).loc main_arg0)) (m ((c : Thread nD τ).loc main_arg1))) := by
  rw [flushed4]
  unfold out0_4
  rw [View.canon_unit_zero origin]
  simp only [View.ld_unit_zero (S := S512x128) origin, View.ld_unit_zero (S := S2048x128) origin,
    View.ld_unit_zero (S := S512x1) origin, View.ld_unit_zero (S := S1x2048) origin]
  obtain ⟨e40, e41, e00, e01, e10, e11, e20, e21, e30, e31⟩ := idx_facts t
  funext j
  obtain ⟨p, q, rfl⟩ : ∃ (p : Fin 512) (q : Fin 2048), j = ix2 p q := ⟨j 0, j 1, eq_ix2 j⟩
  show k0_pay1 (F := Ideal) (iblk m c 0 t) (iblk m c 1 t) (iblk m c 2 t) (iblk m c 3 t) (ix2 p q)
    = distMat _ _ (((cfg0.win 4).blk t).view.emb (ix2 p q))
  refine (Payload.payload_at (iblk m c 0 t) (iblk m c 1 t) (iblk m c 2 t) (iblk m c 3 t) p q).trans ?_
  refine distMat_of_parts _ _ _ _ _ _ _ ?_ ?_ (fun k => ?_) (fun k => ?_)
  · refine (qsqblk_at m c t (ix2 p (0 : Fin 1)) (ix2 ((((cfg0.win 4).blk t).view.emb (ix2 p q)) 0) (0 : Fin 1)) ?_ ?_).trans
      (HostValue.qsq_at m c _)
    · show win0_4.index t (0 : Fin 2) * 512 + 1 * p.val = win0_2.index t (0 : Fin 2) * 512 + 1 * p.val
      rw [e40, e20]
    · show 0 = win0_2.index t (1 : Fin 2) * 1 + 1 * 0
      rw [e21]
  · refine (rsqblk_at m c t (ix2 (0 : Fin 1) q) (ix2 (0 : Fin 1) ((((cfg0.win 4).blk t).view.emb (ix2 p q)) 1)) ?_ ?_).trans
      (HostValue.rsq_at m c _)
    · show 0 = win0_3.index t (0 : Fin 2) * 1 + 1 * 0
      rw [e30]
    · show win0_4.index t (1 : Fin 2) * 2048 + 1 * q.val = win0_3.index t (1 : Fin 2) * 2048 + 1 * q.val
      rw [e41, e31]
  · refine qblk_at m c t (ix2 p k) _ ?_ ?_
    · show win0_4.index t (0 : Fin 2) * 512 + 1 * p.val = win0_0.index t (0 : Fin 2) * 512 + 1 * p.val
      rw [e40, e00]
    · show k.val = win0_0.index t (1 : Fin 2) * 128 + 1 * k.val
      rw [e01]; omega
  · refine rblk_at m c t (ix2 q k) _ ?_ ?_
    · show win0_4.index t (1 : Fin 2) * 2048 + 1 * q.val = win0_1.index t (0 : Fin 2) * 2048 + 1 * q.val
      rw [e41, e10]
    · show k.val = win0_1.index t (1 : Fin 2) * 128 + 1 * k.val
      rw [e11]; omega

/-! ## The blocks cover the array -/

/-- An index of the result array is in point `t`'s block iff each coordinate is in the block's range on its axis. -/
theorem mem_blk (t : Fin cfg0.N) (i : S8192x32768.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v6).slice (win0_4.rect t)).set ↔ _
  rw [View.set_slice_whole, Rect.mem_set_unit]
  exact Iff.rfl

/-- Entry (r, s) of the result lies in the block of point 16·(r / 512) + s / 2048. -/
theorem cover (i : S8192x32768.Idx) : ∃ t : Fin cfg0.N, (cfg0.win 4).flush t = true ∧ i ∈ ((cfg0.win 4).blk t).view.set := by
  have hi0 : (i 0).val < 8192 := (i 0).isLt
  have hi1 : (i 1).val < 32768 := (i 1).isLt
  have hN : cfg0.N = 256 := N_0
  have hlt : 16 * ((i 0).val / 512) + (i 1).val / 2048 < cfg0.N := by omega
  obtain ⟨e40, e41, -⟩ := idx_facts ⟨16 * ((i 0).val / 512) + (i 1).val / 2048, hlt⟩
  refine ⟨⟨16 * ((i 0).val / 512) + (i 1).val / 2048, hlt⟩, flush0_4 _, ?_⟩
  rw [mem_blk]
  intro a
  match a with
  | ⟨0, _⟩ =>
    show win0_4.index ⟨16 * ((i 0).val / 512) + (i 1).val / 2048, hlt⟩ (0 : Fin 2) * 512 ≤ (i 0).val
      ∧ (i 0).val < win0_4.index ⟨16 * ((i 0).val / 512) + (i 1).val / 2048, hlt⟩ (0 : Fin 2) * 512 + 512
    rw [e40]
    show (16 * ((i 0).val / 512) + (i 1).val / 2048) / 16 * 512 ≤ (i 0).val ∧ (i 0).val < (16 * ((i 0).val / 512) + (i 1).val / 2048) / 16 * 512 + 512
    omega
  | ⟨1, _⟩ =>
    show win0_4.index ⟨16 * ((i 0).val / 512) + (i 1).val / 2048, hlt⟩ (1 : Fin 2) * 2048 ≤ (i 1).val
      ∧ (i 1).val < win0_4.index ⟨16 * ((i 0).val / 512) + (i 1).val / 2048, hlt⟩ (1 : Fin 2) * 2048 + 2048
    rw [e41]
    show (16 * ((i 0).val / 512) + (i 1).val / 2048) % 16 * 2048 ≤ (i 1).val ∧ (i 1).val < (16 * ((i 0).val / 512) + (i 1).val / 2048) % 16 * 2048 + 2048
    omega

/-! ## The array after the run, and the run -/

/-- The result array ends holding the distance matrix of the two arguments. -/
theorem final (c : Dev nD) : (dats m 0 c).arrAt 4 cfg0.N
    = distMat (m ((c : Thread nD τ).loc main_arg0)) (m ((c : Thread nD τ).loc main_arg1)) :=
  (dats m 0 c).arrAt_eq_of_cover 4 _ (fun t _ => flushed_eq m c t) cover

/-- Every weakly fair execution terminates with the result array at the distance matrix and the arguments unchanged. -/
theorem run : θ_run defs (onTc (τ := τ) (main (F := Ideal))) ⟨m, fun _ => 0, ρ⟩ fun r => ∀ c : Dev nD,
      r.2.mem ((c : Thread nD τ).loc main_v6) = distMat (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.RefValue.lean ====
/-
  The reference computes the distance matrix `Cert.Pairwise.distMat`.

  Read one operation at a time, the reference's result at (p, q) is the host square root of the maximum with zero of
  (q_sq[p] + r_sq[q]) − 2·cross[p, q], where q_sq and r_sq are the row sums of squares broadcast along the other axis
  and cross is the contraction of the two arrays over their column axis. Each broadcast reads its operand at the
  coordinate it keeps, each row sum is `rowSq` and the contraction is `rowDot`, so the entry is `distOf` of those three.
-/
import proofs.«108994_j86517821213754_1_alg».proof.Proof.Gen.ReferenceIdeal.Read
import proofs.«108994_j86517821213754_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Pairwise

/-- The row sum of squares of the queries, read at row `p`. -/
theorem qsq_at (x0 : FVec Ideal S8192x128 .f32) (p : Fin 8192) :
    val_main_v1 (F := Ideal) x0 (ix1 p) = rowSq x0 p := by
  rw [val_main_v1_apply]
  refine congrArg (_ + ·) (Finset.sum_congr rfl fun k _ => ?_)
  rw [val_main_v0_apply]
  have e : idx_main_v1 (ix1 p) k = ix2 p k := funext fun a => Fin.ext (by match a with | ⟨0, _⟩ => rfl | ⟨1, _⟩ => rfl)
  rw [e]; rfl

/-- The row sum of squares of the references, read at row `q`. -/
theorem rsq_at (x1 : FVec Ideal S32768x128 .f32) (q : Fin 32768) :
    val_main_v4 (F := Ideal) x1 (ix1 q) = rowSq x1 q := by
  rw [val_main_v4_apply]
  refine congrArg (_ + ·) (Finset.sum_congr rfl fun k _ => ?_)
  rw [val_main_v3_apply]
  have e : idx_main_v4 (ix1 q) k = ix2 q k := funext fun a => Fin.ext (by match a with | ⟨0, _⟩ => rfl | ⟨1, _⟩ => rfl)
  rw [e]; rfl

/-- The contraction over the column axis, read at (p, q). -/
theorem cross_at (x0 : FVec Ideal S8192x128 .f32) (x1 : FVec Ideal S32768x128 .f32) (p : Fin 8192) (q : Fin 32768) :
    val_main_v5 (F := Ideal) x0 x1 (ix2 p q) = rowDot x0 x1 p q := by
  rw [val_main_v5_apply]
  refine Finset.sum_congr rfl fun k _ => ?_
  have el : lidx_main_v5 (ix2 p q) k = ix2 p k := funext fun a => Fin.ext (by match a with | ⟨0, _⟩ => rfl | ⟨1, _⟩ => rfl)
  have er : ridx_main_v5 (ix2 p q) k = ix2 q k := funext fun a => Fin.ext (by match a with | ⟨0, _⟩ => rfl | ⟨1, _⟩ => rfl)
  rw [el, er]

/-- The reference's result is the distance matrix of its two arguments. -/
theorem result_eq (x0 : FVec Ideal S8192x128 .f32) (x1 : FVec Ideal S32768x128 .f32) :
    val_main_v15 (F := Ideal) x0 x1 = distMat x0 x1 := by
  funext i
  obtain ⟨p, q, rfl⟩ : ∃ (p : Fin 8192) (q : Fin 32768), i = ix2 p q := ⟨i 0, i 1, eq_ix2 i⟩
  rw [val_main_v15_apply, val_main_v14_apply, val_main_v12_apply, val_main_v9_apply, val_main_v11_apply,
    val_main_v7_apply, val_main_v2_apply, val_main_v8_apply, val_main_v6_apply,
    val_main_v10_apply, val_main_cst_1_apply, val_main_v13_apply, val_main_cst_2_apply, cross_at, distMat_ix2]
  have e2 : idx_main_v2 (idx_main_v7 (ix2 p q)) = ix1 p := funext fun a => Fin.ext (by match a with | ⟨0, _⟩ => rfl)
  have e6 : idx_main_v6 (idx_main_v8 (ix2 p q)) = ix1 q := funext fun a => Fin.ext (by match a with | ⟨0, _⟩ => rfl)
  rw [e2, e6, qsq_at, rsq_at]
  rfl

end Cert.ReferenceIdeal.RefValue

end
-- ==== Proof.lean ====
/-
  The kernel computes the pairwise Euclidean distance matrix between 8192 query rows and 32768 reference rows of
  dimension 128, and so does the reference: at (p, q) both give

      √ max( (‖queryₚ‖² + ‖ref_q‖²) − 2·⟨queryₚ, ref_q⟩ , 0 )

  over the extended reals, with the same grouping of the three summands.

  The kernel works on a 16 × 16 grid. Each point takes 512 query rows and 2048 reference rows, forms their inner products
  as one matrix product (after a change of float format, which is the identity on extended reals, and a transpose), adds
  the two squared norms that the host computed beforehand and broadcast as a column and a row, subtracts twice the product,
  clamps at zero and takes the root. The reference does the same on the whole arrays with one contraction. The only
  difference is the tiling, and the proof is a re-indexing: a block's entry (p, q) at point 16·i + j is the matrix's entry
  (512·i + p, 2048·j + q), and the 256 blocks cover the result.

  The three programs run and keep their arguments; the idealized kernel is the kernel's own text read over the extended
  reals (no rewrite was applied); the two idealized programs end with equal results. Nothing is asked of the inputs beyond
  what the statement gives, and that is not used.
-/
import proofs.«108994_j86517821213754_1_alg».proof.Defs
import proofs.«108994_j86517821213754_1_alg».proof.Proof.Gen.Kernel
import proofs.«108994_j86517821213754_1_alg».proof.Proof.Gen.Kernel.Skeleton
import proofs.«108994_j86517821213754_1_alg».proof.Proof.Gen.Kernel.Launch
import proofs.«108994_j86517821213754_1_alg».proof.Proof.Gen.Kernel.Points
import proofs.«108994_j86517821213754_1_alg».proof.Proof.Gen.Kernel.Frame
import proofs.«108994_j86517821213754_1_alg».proof.Proof.Gen.KernelIdeal
import proofs.«108994_j86517821213754_1_alg».proof.Proof.Gen.KernelIdeal.Skeleton
import proofs.«108994_j86517821213754_1_alg».proof.Proof.Gen.KernelIdeal.Launch
import proofs.«108994_j86517821213754_1_alg».proof.Proof.Gen.KernelIdeal.Points
import proofs.«108994_j86517821213754_1_alg».proof.Proof.Gen.KernelIdeal.Frame
import proofs.«108994_j86517821213754_1_alg».proof.Proof.Gen.ReferenceIdeal
import proofs.«108994_j86517821213754_1_alg».proof.Proof.Gen.Pre_finite_inputs
import proofs.«108994_j86517821213754_1_alg».proof.Proof.Gen.KernelIdeal.Value
import proofs.«108994_j86517821213754_1_alg».proof.Proof.Gen.ReferenceIdeal.Run
import proofs.«108994_j86517821213754_1_alg».proof.Proof.Gen.ReferenceIdeal.Read
import proofs.«108994_j86517821213754_1_alg».proof.Proof.KernelValue
import proofs.«108994_j86517821213754_1_alg».proof.Proof.RefValue
import Idealize.ShloMosaic.Adequacy
import Idealize.ShloMosaic.Init

noncomputable section

namespace Cert.Proof

open Idealize.ShloMosaic Idealize.ShloMosaic.TcCoe Idealize.SL.Sem Cert.Pairwise

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two embedding arrays, the kernel's result array ends at the distance matrix of its
    arguments (the blocks, covered) and the reference's at the same matrix of its own (one operation at a time). -/
theorem algebraic : Cert.algebraic_KernelIdeal_ReferenceIdeal := by
  intro m ρ m' ρ' _ hagree
  refine ⟨fun c => distMat (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
